-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x128 .f32) (main_arg1 : FVec F S8x2048x2048 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x128 : Shape := ⟨3, ![8, 2048, 128]⟩
abbrev S8x2048x2048 : Shape := ⟨3, ![8, 2048, 2048]⟩
abbrev S1x512x2048 : Shape := ⟨3, ![1, 512, 2048]⟩
abbrev S1x2048x128 : Shape := ⟨3, ![1, 2048, 128]⟩
abbrev S1x512x128 : Shape := ⟨3, ![1, 512, 128]⟩
abbrev S512x2048 : Shape := ⟨2, ![512, 2048]⟩
abbrev S2048x128 : Shape := ⟨2, ![2048, 128]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S8x2048x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x512x128, .f32⟩
  | .local _ .vmem, ⟨5, _⟩ => ⟨S1x512x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S8x2048x128.size a
  hwx0_2 : ∀ i : grid0.Coords, EltTy.bits .f32 = 32 ∨ (Rect.block (s := S8x2048x128) S1x512x128.size (cc0_transform_2 i) (hinb0_2 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x2048_S8x2048x128_S8x2048x128_2_1_1_2_0_0_wf : DotDims.WF S8x2048x2048 S8x2048x128 S8x2048x128 [2] [1] [1] [2] [0] [0]

variable [Facts₀]

def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.BlockProduct.lean ====
/-
  What the kernel body computes from one pair of blocks. The body is handed a slab of 512 rows of one graph's
  adjacency matrix, as a [1, 512, 2048] block, and that graph's whole embedding matrix, as a [1, 2048, 128] block.
  It drops the leading unit axis of each, narrows both to bf16 (at the ideal values a change of format changes
  nothing), multiplies them into a zero accumulator, and puts the unit axis back. So entry (·, p, q) of what it
  stores is the plain matrix product's entry (p, q):  ∑ κ < 2048, slab (0, p, κ) · embeddings (0, κ, q).
-/
import proofs.«138832_j87170656239792_1_alg».proof.Proof.Gen.KernelIdeal.Skeleton
import proofs.«138832_j87170656239792_1_alg».proof.Proof.LibPlainDot
import Idealize.ShloMosaic.Lib.ValueLayout

noncomputable section

namespace Cert.KernelIdeal.BlockProduct

open Cert.KernelIdeal Cert.KernelIdeal.Gen Idealize.ShloMosaic Idealize.ShloMosaic.ValueIdx

/-- The body's product is a plain one: rows from the slab, columns from the embeddings, one contracted axis. -/
theorem plain : Cert.PlainDot.Plain dot_S512x2048_S2048x128_S512x128_1_0_0_1_n_n :=
  ⟨rfl, rfl, rfl, rfl, rfl, rfl⟩

/-- The stored block at (u, p, q): the row p of the slab against the column q of the embeddings. -/
theorem pay_apply (slab : Vec Ideal S1x512x2048 .f32) (embs : Vec Ideal S1x2048x128 .f32)
    (u : Fin 1) (p : Fin 512) (q : Fin 128) :
    k0_pay1 (F := Ideal) slab embs (ix3 u p q)
      = ∑ κ : Fin 2048, slab (ix3 (0 : Fin 1) p κ) * embs (ix3 (0 : Fin 1) κ q) := by
  unfold k0_pay1
  rw [shapeCast_ab_1ab_apply, Cert.PlainDot.matmul_zero_apply plain rfl rfl]
  refine Finset.sum_congr rfl fun κ _ => ?_
  show shapeCast S512x2048 slab _ (ix2 p κ) * shapeCast S2048x128 embs _ (ix2 κ q) = _
  rw [shapeCast_1ab_ab_apply, shapeCast_1ab_ab_apply]

/-- The same at any index y of the stored block: its unit coordinate plays no part. -/
theorem block_entry (slab : Vec Ideal S1x512x2048 .f32) (embs : Vec Ideal S1x2048x128 .f32) (y : S1x512x128.Idx) :
    k0_pay1 (F := Ideal) slab embs y
      = ∑ κ : Fin 2048, slab (ix3 (0 : Fin 1) (y 1) κ) * embs (ix3 (0 : Fin 1) κ (y 2)) :=
  (congrArg (k0_pay1 (F := Ideal) slab embs) (eq_ix3 y)).trans (pay_apply slab embs (y 0) (y 1) (y 2))

end Cert.KernelIdeal.BlockProduct

end
-- ==== Proof.Aggregate.lean ====
/-
  Neighbour aggregation, graph by graph: for each graph b of the batch, the weighted adjacency matrix N_b
  (2048 × 2048) times the node embeddings E_b (2048 × 128),

      out[b, n, d] = ∑ κ < 2048, N[b, n, κ] · E[b, κ, d].

  One function of the two argument arrays, index by index, on the extended reals: a finite sum of products and
  nothing else. Both programs compute it; neither needs the inputs finite for that.
-/
import Idealize.ShloMosaic.Lib.ValueIdx
import Idealize.ShloMosaic.PureOps.Ideal

noncomputable section

namespace Cert.Aggregate

open Idealize.ShloMosaic Idealize.ShloMosaic.ValueIdx

/-- The aggregated embeddings: entry (b, n, d) sums, over the neighbours κ of node n in graph b, the edge weight
    times the neighbour's d-th feature. -/
def agg (emb : (⟨3, ![8, 2048, 128]⟩ : Shape).Idx → EReal) (neib : (⟨3, ![8, 2048, 2048]⟩ : Shape).Idx → EReal) :
    (⟨3, ![8, 2048, 128]⟩ : Shape).Idx → EReal :=
  fun i => ∑ κ : Fin 2048, neib (ix3 (i 0) (i 1) κ) * emb (ix3 (i 0) κ (i 2))

end Cert.Aggregate

end
-- ==== Proof.ArrayValue.lean ====
/-
  From blocks to the whole array. The grid has one point per (graph b, slab s of 512 rows): 8 × 4 points. At the
  point (b, s) the kernel is handed rows 512·s … 512·s + 511 of graph b's adjacency matrix and all of graph b's
  embeddings, and writes back rows 512·s … 512·s + 511 of graph b's result. A row of a matrix product depends on
  that row of the left factor and on the whole right factor, so what the point writes back is exactly its block
  of the aggregation of the two argument arrays; and the 32 blocks tile the result. Hence the result array ends
  holding the aggregation.
-/
import proofs.«138832_j87170656239792_1_alg».proof.Proof.Gen.KernelIdeal.Value
import proofs.«138832_j87170656239792_1_alg».proof.Proof.BlockProduct
import proofs.«138832_j87170656239792_1_alg».proof.Proof.Aggregate

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The adjacency matrices as the kernel finds them. -/
abbrev adjacency (c : Dev nD) : (⟨3, ![8, 2048, 2048]⟩ : Shape).Idx → EReal := V m c main_arg1
/-- The embeddings as the kernel finds them. -/
abbrev embeddings (c : Dev nD) : (⟨3, ![8, 2048, 128]⟩ : Shape).Idx → EReal := V m c main_arg0

/-- The body loads and stores each block from its corner. -/
theorem corner : (![0, 0, 0] : Fin 3 → Nat) = fun _ => 0 := funext fun a => by fin_cases a <;> rfl

/-- How the blocks move over the grid: the slab of the adjacency matrix sits in the same graph and the same rows
    as the result's block and spans all columns; the embeddings' block is the whole matrix of the same graph; the
    result's block index is (graph ≤ 7, slab ≤ 3, 0). -/
theorem tile_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 7
    ∧ win0_2.index t (1 : Fin 3) ≤ 3
    ∧ win0_2.index t (2 : Fin 3) = 0 :=
  (by decide +kernel : ∀ t : Fin grid0.N, _)

/-- Every (graph, slab) is some point's. -/
theorem tile_onto : ∀ (b : Fin 8) (s : Fin 4), ∃ t : Fin cfg0.N, win0_2.index t = ![b.val, s.val, 0] :=
  (by decide +kernel : ∀ (b : Fin 8) (s : Fin 4), ∃ t : Fin grid0.N, win0_2.index t = ![b.val, s.val, 0])

/-- What the point t writes back is its block of the aggregation of the argument arrays. -/
theorem flushed_eq (c : Dev nD) (t : Fin cfg0.N) :
    (dats m 0 c).flushed 2 t
      = ((cfg0.win 2).blk t).view.read (Elt Ideal) (Cert.Aggregate.agg (embeddings m c) (adjacency m c)) := by
  rw [Cert.KernelIdeal.Value.flushed2]
  unfold out0_2
  rw [View.canon_unit_zero corner]
  simp only [View.ld_unit_zero (S := S1x512x2048) corner, View.ld_unit_zero (S := S1x2048x128) corner]
  obtain ⟨e0, e1, e2, e3, e4, e5, -, -, e8⟩ := tile_facts t
  funext j
  show k0_pay1 (F := Ideal) (iblk m c 0 t) (iblk m c 1 t) j
    = Cert.Aggregate.agg (embeddings m c) (adjacency m c) (((cfg0.win 2).blk t).view.emb j)
  refine (Cert.KernelIdeal.BlockProduct.block_entry (iblk m c 0 t) (iblk m c 1 t) j).trans ?_
  unfold Cert.Aggregate.agg
  refine Finset.sum_congr rfl fun κ _ => ?_
  show adjacency m c (((cfg0.win 0).blk t).view.emb (ix3 (0 : Fin 1) (j 1) κ))
        * embeddings m c (((cfg0.win 1).blk t).view.emb (ix3 (0 : Fin 1) κ (j 2)))
      = adjacency m c (ix3 ((((cfg0.win 2).blk t).view.emb j) 0) ((((cfg0.win 2).blk t).view.emb j) 1) κ)
        * embeddings m c (ix3 ((((cfg0.win 2).blk t).view.emb j) 0) κ ((((cfg0.win 2).blk t).view.emb j) 2))
  have hj0 : (j 0).val < 1 := (j 0).isLt
  have hadj : ((cfg0.win 0).blk t).view.emb (ix3 (0 : Fin 1) (j 1) κ)
      = ix3 ((((cfg0.win 2).blk t).view.emb j) 0) ((((cfg0.win 2).blk t).view.emb j) 1) κ := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 2048 + 1 * κ.val = κ.val; omega
  have hemb : ((cfg0.win 1).blk t).view.emb (ix3 (0 : Fin 1) κ (j 2))
      = ix3 ((((cfg0.win 2).blk t).view.emb j) 0) κ ((((cfg0.win 2).blk t).view.emb j) 2) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 2048 + 1 * κ.val = κ.val; omega
    | ⟨2, _⟩ => show win0_1.index t (2 : Fin 3) * 128 + 1 * (j 2).val = win0_2.index t (2 : Fin 3) * 128 + 1 * (j 2).val; omega
  rw [hadj, hemb]
  rfl

/-- An index of the result array lies in the point t's block iff each coordinate lies in the block's range. -/
theorem mem_blk (t : Fin cfg0.N) (i : S8x2048x128.Idx) :
    i ∈ ((cfg0.win 2).blk t).view.set ↔ ∀ a : Fin 3, win0_2.index t a * S1x512x128.size a ≤ (i a).val
      ∧ (i a).val < win0_2.index t a * S1x512x128.size a + S1x512x128.size a := by
  show i ∈ ((View.whole main_v0).slice (win0_2.rect t)).set ↔ _
  rw [View.set_slice_whole, Rect.mem_set_unit]
  exact Iff.rfl

/-- The blocks tile the result: the entry (b, n, d) lies in the block of the point (b, n / 512). -/
theorem cover (i : S8x2048x128.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  obtain ⟨t, ht⟩ := tile_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 128 ≤ (i 2).val ∧ (i 2).val < win0_2.index t (2 : Fin 3) * 128 + 128; omega

/-- The result array after the run is the aggregation of the argument arrays as launched. -/
theorem final (c : Dev nD) :
    (dats m 0 c).arrAt 2 cfg0.N
      = Cert.Aggregate.agg (m ((c : Thread nD τ).loc main_arg0)) (m ((c : Thread nD τ).loc main_arg1)) :=
  (dats m 0 c).arrAt_eq_of_cover 2 (Cert.Aggregate.agg (embeddings m c) (adjacency m c))
    (fun t _ => flushed_eq m c t) cover

/-- Every weakly fair execution of the idealized kernel ends with the result array at the aggregation of the
    arguments, and the arguments as launched. -/
theorem run : θ_run defs (onTc (τ := τ) (main (F := Ideal))) ⟨m, fun _ => 0, ρ⟩ fun r => ∀ c : Dev nD,
      r.2.mem ((c : Thread nD τ).loc main_v0)
        = Cert.Aggregate.agg (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩)
    (Cert.KernelIdeal.Value.run_blocks m ρ)

end Cert.KernelIdeal.ArrayValue

end
-- ==== Proof.ReferenceValue.lean ====
/-
  The reference is one batched product: graphs are the batch axis, the adjacency matrix's last axis is contracted
  against the embeddings' middle axis. Read at an entry (b, n, d), with the contraction written as a sum over
  κ < 2048, it takes the adjacency matrix at (b, n, κ) and the embeddings at (b, κ, d): the aggregation itself.
-/
import proofs.«138832_j87170656239792_1_alg».proof.Proof.Gen.ReferenceIdeal.Read
import proofs.«138832_j87170656239792_1_alg».proof.Proof.Aggregate

noncomputable section

namespace Cert.ReferenceIdeal.RefValue

open Cert.ReferenceIdeal Cert.ReferenceIdeal.Read Idealize.ShloMosaic Idealize.ShloMosaic.ValueIdx

/-- Where the product reads the adjacency matrix: graph and row from the result's entry, column the summation index. -/
theorem adjacency_index (i : S8x2048x128.Idx) (κ : Fin 2048) : lidx_main_v0 i κ = ix3 (i 0) (i 1) κ :=
  funext fun a => Fin.ext (by match a with | ⟨0, _⟩ => rfl | ⟨1, _⟩ => rfl | ⟨2, _⟩ => rfl)

/-- Where it reads the embeddings: graph and feature from the result's entry, node the summation index. -/
theorem embedding_index (i : S8x2048x128.Idx) (κ : Fin 2048) : ridx_main_v0 i κ = ix3 (i 0) κ (i 2) :=
  funext fun a => Fin.ext (by match a with | ⟨0, _⟩ => rfl | ⟨1, _⟩ => rfl | ⟨2, _⟩ => rfl)

/-- The reference's result is the aggregation of its two arguments. -/
theorem reference_is_agg (emb : (⟨S8x2048x128, .f32⟩ : BufTy).Contents (Elt Ideal))
    (neib : (⟨S8x2048x2048, .f32⟩ : BufTy).Contents (Elt Ideal)) :
    val_main_v0 (F := Ideal) emb neib = Cert.Aggregate.agg emb neib := by
  funext i
  rw [val_main_v0_apply]
  unfold Cert.Aggregate.agg
  refine Finset.sum_congr rfl fun κ _ => ?_
  rw [adjacency_index i κ, embedding_index i κ]
  rfl

end Cert.ReferenceIdeal.RefValue

end
-- ==== Proof.lean ====
/-
  Neighbour aggregation for a batch of 8 graphs of 2048 nodes with 128-wide embeddings: for each graph, the
  weighted adjacency matrix times the embedding matrix,

      out[b, n, d] = ∑ κ < 2048, neibors[b, n, κ] · last_embs[b, κ, d].

  The kernel walks a grid of 8 graphs × 4 slabs of 512 rows. At each point it multiplies one slab of the
  adjacency matrix by the graph's whole embedding matrix (both narrowed to bf16 first, accumulated in f32 from
  zero) and writes the slab of the result. The reference is one batched product over the graphs.

  On the extended reals a change of float format is the identity and a matrix product from a zero accumulator
  is the exact sum of products, so each point writes its block of the aggregation (a row of a product needs
  only that row of the left factor), the 32 blocks tile the result, and the result array is the aggregation.
  The reference's product, read at an entry, is the same sum over the same index. The two sides are one
  function of the arguments: nothing is rearranged, so no law of the extended reals is used and the inputs'
  finiteness is never opened. The idealized kernel is the kernel's own text read at the ideal values, with
  no rewrite to account for.
-/
import proofs.«138832_j87170656239792_1_alg».proof.Defs
import proofs.«138832_j87170656239792_1_alg».proof.Proof.Gen.Kernel
import proofs.«138832_j87170656239792_1_alg».proof.Proof.Gen.Kernel.Skeleton
import proofs.«138832_j87170656239792_1_alg».proof.Proof.Gen.Kernel.Launch
import proofs.«138832_j87170656239792_1_alg».proof.Proof.Gen.Kernel.Points
import proofs.«138832_j87170656239792_1_alg».proof.Proof.Gen.Kernel.Frame
import proofs.«138832_j87170656239792_1_alg».proof.Proof.Gen.KernelIdeal
import proofs.«138832_j87170656239792_1_alg».proof.Proof.Gen.KernelIdeal.Skeleton
import proofs.«138832_j87170656239792_1_alg».proof.Proof.Gen.KernelIdeal.Launch
import proofs.«138832_j87170656239792_1_alg».proof.Proof.Gen.KernelIdeal.Points
import proofs.«138832_j87170656239792_1_alg».proof.Proof.Gen.KernelIdeal.Frame
import proofs.«138832_j87170656239792_1_alg».proof.Proof.Gen.ReferenceIdeal
import proofs.«138832_j87170656239792_1_alg».proof.Proof.Gen.KernelIdeal.Value
import proofs.«138832_j87170656239792_1_alg».proof.Proof.Gen.ReferenceIdeal.Run
import proofs.«138832_j87170656239792_1_alg».proof.Proof.Gen.ReferenceIdeal.Read
import proofs.«138832_j87170656239792_1_alg».proof.Proof.Gen.Pre_finite_inputs
import proofs.«138832_j87170656239792_1_alg».proof.Proof.ArrayValue
import proofs.«138832_j87170656239792_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is one host operation: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result array at the aggregation of the arguments, which agree. -/
theorem algebraic : Cert.algebraic_KernelIdeal_ReferenceIdeal := by
  intro m ρ m' ρ' _ hagree
  refine ⟨fun c => Cert.Aggregate.agg
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.reference_is_agg,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
